-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x32 .f32) (main_arg14 : FVec F S32 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x32 .f32 := Host.absf main_arg13
  let main_cst_22 : FVec F S_ .f32 := constant S_ .f32 0x7F800000#32
  let main_v60 : FVec F S128x32 .f32 := broadcastInDim S128x32 ![] bcast_S_S128x32 main_cst_22
  let main_v61 : IVec S128x32 1 := cmpf .olt main_v59 main_v60
  let main_c_23 : IVec S_ 1 := constantI S_ 1 1#1
  let main_v62 : IVec S_ 1 := (fun x v => Host.reduce IntOp.andi x v reducesTo_S128x32_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_v63 main_v67

def fn_part2 {F : FTy → Type} [FloatOps F] (main_arg8 : FVec F S128x128 .f32) (main_arg9 : FVec F S128 .f32) (main_arg10 : FVec F S128x128 .f32) (main_arg11 : FVec F S128x128 .f32) (main_arg12 : FVec F S128 .f32) (main_arg13 : FVec F S128x32 .f32) (main_arg14 : FVec F S32 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x32 .f32) (main_arg14 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x32 .f32) (main_arg14 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S1x32 : Shape := ⟨2, ![1, 32]⟩
abbrev S100000x32 : Shape := ⟨2, ![100000, 32]⟩
abbrev S5000x32 : Shape := ⟨2, ![5000, 32]⟩

abbrev nBuf : Space → Nat
  | .hbm => 67
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x32, .f32⟩
  | .hbm, ⟨14, _⟩ => ⟨S32, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S1x128, .f32⟩
  | .hbm, ⟨65, _⟩ => ⟨S1x32, .f32⟩
  | .hbm, ⟨66, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S1x128, .f32⟩
  | .local _ .vmem, ⟨31, _⟩ => ⟨S128x32, .f32⟩
  | .local _ .vmem, ⟨32, _⟩ => ⟨S1x32, .f32⟩
  | .local _ .vmem, ⟨33, _⟩ => ⟨S5000x32, .f32⟩
  | .local _ .vmem, ⟨34, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S32_S1x32 : S32.ShapeCasts S1x32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x32_S5000x32_1_0_0_1_n_n_wf : DotDims.WF S5000x128 S128x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x32.size a ≤ S128x32.size a
  hwx3_3 : ∀ i : grid3.Coords, EltTy.bits .f32 = 32 ∨ (Rect.block (s := S128x32) S128x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x32.size a ≤ S100000x32.size a
  hwx3_5 : ∀ i : grid3.Coords, EltTy.bits .f32 = 32 ∨ (Rect.block (s := S100000x32) S5000x32.size (cc3_transform_5 i) (hinb3_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v39) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S128x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v42) S5000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x32 : Shape := ⟨2, ![100000, 32]⟩
abbrev S1x32 : Shape := ⟨2, ![1, 32]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x32, .f32⟩
  | .hbm, ⟨14, _⟩ => ⟨S32, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S100000x32, .f32⟩
  | .hbm, ⟨93, _⟩ => ⟨S1x32, .f32⟩
  | .hbm, ⟨94, _⟩ => ⟨S100000x32, .f32⟩
  | .hbm, ⟨95, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call0_cst : Ref sig .tc := ⟨.hbm, 38, rfl⟩
abbrev main_call0_v0 : Ref sig .tc := ⟨.hbm, 39, rfl⟩
abbrev main_v20 : Ref sig .tc := ⟨.hbm, 40, rfl⟩
abbrev main_c_1 : Ref sig .tc := ⟨.hbm, 41, rfl⟩
abbrev main_v21 : Ref sig .tc := ⟨.hbm, 42, rfl⟩
abbrev main_v22 : Ref sig .tc := ⟨.hbm, 43, rfl⟩
abbrev main_c_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call1_cst : Ref sig .tc := ⟨.hbm, 60, rfl⟩
abbrev main_call1_v0 : Ref sig .tc := ⟨.hbm, 61, rfl⟩
abbrev main_v37 : Ref sig .tc := ⟨.hbm, 62, rfl⟩
abbrev main_c_4 : Ref sig .tc := ⟨.hbm, 63, rfl⟩
abbrev main_v38 : Ref sig .tc := ⟨.hbm, 64, rfl⟩
abbrev main_v39 : Ref sig .tc := ⟨.hbm, 65, rfl⟩
abbrev main_c_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call2_cst : Ref sig .tc := ⟨.hbm, 82, rfl⟩
abbrev main_call2_v0 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call3_cst : Ref sig .tc := ⟨.hbm, 89, rfl⟩
abbrev main_call3_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x32_S100000x32_1_0_0_1_n_n_wf : DotDims.WF S100000x128 S128x32 S100000x32 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf

class Facts : Prop extends Facts₀ where

variable [Facts]
-- ==== Proof.Spec.lean ====
/-
  The mathematics of the certificate, stated once over literal shapes and the extended reals.

  A graph-convolution layer maps node features `x` (100000 × 128) and their neighbourhood sums `a` (same shape) to
  `max (a · W_rel + x · W_root + b, 0)`; the edge classifier is `max (h · W0 + b0, 0) · W1 + b1`.  Every product
  is a plain sum over the 128 contracted coordinates.  Both programs compute these functions; they differ only in the
  order in which the bias and the second product are added, and addition on the extended reals is commutative and
  associative, so no finiteness is needed anywhere.
-/
import Idealize.ShloMosaic.PureOps.Ideal
import Idealize.ShloMosaic.Lib.ValueIdx

noncomputable section

namespace Cert.GraphSpec

open Idealize.ShloMosaic Idealize.ShloMosaic.ValueIdx

/-- A matrix of extended reals with `r` rows and `c` columns, indexed as the programs index their rank-2 arrays. -/
abbrev Mat (r c : Nat) : Type := (⟨2, ![r, c]⟩ : Shape).Idx → EReal
/-- A vector of extended reals of length `n`. -/
abbrev Row (n : Nat) : Type := (⟨1, ![n]⟩ : Shape).Idx → EReal

/-- The one row of a 1 × n matrix, as a vector. -/
def rowOf {n : Nat} (b : Mat 1 n) : Row n := fun j => b (ix2 (0 : Fin 1) (j 0))

/-- One graph-convolution layer: entry (r, q) is `max ((Σₖ a r k · wr k q + Σₖ x r k · wo k q) + b q, 0)`. -/
def conv (a x : Mat 100000 128) (wr : Mat 128 128) (b : Row 128) (wo : Mat 128 128) : Mat 100000 128 := fun i =>
  max (((∑ k : Fin 128, a (ix2 (n0 := 100000) (n1 := 128) (i 0) k) * wr (ix2 (n0 := 128) (n1 := 128) k (i 1)))
        + (∑ k : Fin 128, x (ix2 (n0 := 100000) (n1 := 128) (i 0) k) * wo (ix2 (n0 := 128) (n1 := 128) k (i 1))))
       + b (ix1 (n := 128) (i 1))) 0

/-- A dense layer with rectifier: entry (r, q) is `max (Σₗ h r l · w l q + b q, 0)`. -/
def dense (h : Mat 100000 128) (w : Mat 128 128) (b : Row 128) : Mat 100000 128 := fun i =>
  max ((∑ l : Fin 128, h (ix2 (n0 := 100000) (n1 := 128) (i 0) l) * w (ix2 (n0 := 128) (n1 := 128) l (i 1)))
       + b (ix1 (n := 128) (i 1))) 0

/-- The output layer: entry (r, q) is `Σₖ h r k · w k q + b q`, 32 columns. -/
def affine (h : Mat 100000 128) (w : Mat 128 32) (b : Row 32) : Mat 100000 32 := fun i =>
  (∑ k : Fin 128, h (ix2 (n0 := 100000) (n1 := 128) (i 0) k) * w (ix2 (n0 := 128) (n1 := 32) k (i 1)))
    + b (ix1 (n := 32) (i 1))

/-- The edge classifier: a dense rectified layer followed by the output layer. -/
def cls (h : Mat 100000 128) (w0 : Mat 128 128) (b0 : Row 128) (w1 : Mat 128 32) (b1 : Row 32) : Mat 100000 32 :=
  affine (dense h w0 b0) w1 b1

/-- One message-passing step: aggregate the features over the edges (`agg`), then convolve. -/
def layer (agg : Mat 100000 128 → Mat 100000 128) (h : Mat 100000 128) (wr : Mat 128 128) (b : Row 128) (wo : Mat 128 128) :
    Mat 100000 128 :=
  conv (agg h) h wr b wo

/-- The whole network: three message-passing steps over one fixed aggregation, then the edge classifier. -/
def net (agg : Mat 100000 128 → Mat 100000 128) (x : Mat 100000 128)
    (wr0 : Mat 128 128) (b0 : Row 128) (wo0 : Mat 128 128)
    (wr1 : Mat 128 128) (b1 : Row 128) (wo1 : Mat 128 128)
    (wr2 : Mat 128 128) (b2 : Row 128) (wo2 : Mat 128 128)
    (wc0 : Mat 128 128) (bc0 : Row 128) (wc1 : Mat 128 32) (bc1 : Row 32) : Mat 100000 32 :=
  cls (layer agg (layer agg (layer agg x wr0 b0 wo0) wr1 b1 wo1) wr2 b2 wo2) wc0 bc0 wc1 bc1

end Cert.GraphSpec

end
-- ==== Proof.Conv0.lean ====
import proofs.«179810_j1520418422913_1_alg».proof.Proof.Gen.KernelIdeal.Frame
import proofs.«179810_j1520418422913_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Conv0

open Cert.KernelIdeal Cert.KernelIdeal.Gen Cert.GraphSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! # Region 0: the first graph-convolution layer

The region's grid has 20 points.  At point `t` the body reads rows `5000 t … 5000 t + 4999` of the aggregated features
and of the node features, the two whole 128 × 128 weight matrices and the whole 1 × 128 bias, and stores one 5000 × 128
block: the rectified sum of the two matrix products and the bias row.  Read entry by entry that block is block `t` of
`conv` of the five arrays, and the 20 blocks fill the 100000 × 128 output array, so the array ends holding `conv` of
the arrays the region was entered with.  Every operation is exact on the extended reals, so nothing is assumed finite. -/

/-! ## The matrix product of two blocks, read at an entry

The contraction of the product has one axis of extent 128; at output entry `(p, q)` and contraction coordinate `k`
the left operand is read at `(p, k)` and the right operand at `(k, q)`. -/

/-- The left operand's row coordinate is the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contraction coordinate. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contraction coordinate. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 block times a 128 × 128 matrix, accumulated into zero, is at entry `(p, q)` the sum over the 128
    contracted coordinates of the products of the entries `(p, k)` and `(k, q)`. -/
theorem matmul_entry {φ₁ φ₂ : FTy} (x : FVec Ideal S5000x128 φ₁) (w : FVec Ideal S128x128 φ₂) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The body's result at an entry -/

/-- The block the body stores is, at entry `(p, q)`, the rectified sum of the two products' entries and the bias row's
    entry `q`: the format changes are the identity on extended reals, the casts to the same shape are the identity,
    and the bias row is repeated on every row. -/
theorem pay_apply (x0 x1 : Vec Ideal S5000x128 .f32) (w w' : Vec Ideal S128x128 .f32) (b : Vec Ideal S1x128 .f32)
    (p : Fin 5000) (q : Fin 128) :
    k0_pay1 (F := Ideal) x0 x1 w w' b (ix2 p q)
      = max ((∑ k : Fin 128, x0 (ix2 p k) * w (ix2 k q) + ∑ k : Fin 128, x1 (ix2 p k) * w' (ix2 k q))
          + b (ix2 (0 : Fin 1) q)) 0 := by
  unfold k0_pay1
  rw [maximumf_apply, addf_apply, addf_apply, broadcast_apply, matmul_entry, matmul_entry]
  simp only [truncf_apply, shapeCast_self]
  rw [broadcastTo_1b_ab_apply]
  exact congrArg (max _) Ideal.ofBits_zero_f32

/-! ## The windows' blocks inside their arrays -/

/-- The body's accesses start at the origin of their staging buffers. -/
theorem origin : (![0, 0] : Fin 2 → Nat) = fun _ => 0 := funext fun a => by fin_cases a <;> rfl

/-- The printed index maps, decided over the 20 grid points: the two feature windows and the output window are at block
    `(t, 0)`, the weight and bias windows at block `(0, 0)`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer's function at an entry given by its coordinates. -/
theorem conv_entry (a x : Mat 100000 128) (wr : Mat 128 128) (b : Row 128) (wo : Mat 128 128) (r : Fin 100000) (q : Fin 128) :
    conv a x wr b wo (ix2 r q)
      = max ((∑ k : Fin 128, a (ix2 r k) * wr (ix2 k q) + ∑ k : Fin 128, x (ix2 r k) * wo (ix2 k q)) + b (ix1 q)) 0 := rfl

/-- The one row of a 1 × n matrix at a coordinate. -/
theorem rowOf_entry {n : Nat} (b : Mat 1 n) (q : Fin n) : rowOf b (ix1 q) = b (ix2 (0 : Fin 1) q) := rfl

/-- What grid point `t` writes back is block `t` of the layer's function of the arrays the region was entered with:
    entry `(p, q)` of the block is entry `(5000 t + p, q)` of the array, the feature blocks are read at the same
    rows, and the weights and the bias are whole. -/
theorem flushed_eq (c : Dev nD) (t : Fin cfg0.N) :
    (dat0 (F := Ideal) V c).flushed 5 t = ((cfg0.win 5).blk t).view.read (Elt Ideal)
      (conv (V c main_v13) (V c main_arg0) (V c main_arg2) (rowOf (V c main_v14)) (V c main_arg4)) := by
  show (cfg0.win 5).cut (grid0.coords t) ((dat0 (F := Ideal) V c).after 5 t) = _
  rw [after0_5]
  unfold out0_5
  rw [View.canon_unit_zero origin]
  simp only [View.ld_unit_zero (S := S5000x128) origin, View.ld_unit_zero (S := S128x128) origin, View.ld_unit_zero (S := S1x128) origin]
  funext j
  obtain ⟨p, q, rfl⟩ : ∃ (p : Fin 5000) (q : Fin 128), j = ix2 p q := ⟨j 0, j 1, eq_ix2 j⟩
  obtain ⟨a00, a01, a10, a11, a20, a21, a30, a31, a40, a41, a50, a51⟩ := block_index t
  have ht : t.val < 20 := lt_of_lt_of_eq t.isLt N_0
  have hp : p.val < 5000 := p.isLt
  obtain ⟨r, hr⟩ : ∃ r : Fin 100000, r.val = t.val * 5000 + p.val := ⟨⟨t.val * 5000 + p.val, by omega⟩, rfl⟩
  show k0_pay1 (F := Ideal) (iblk0 V c 0 t) (iblk0 V c 1 t) (iblk0 V c 2 t) (iblk0 V c 4 t) (iblk0 V c 3 t) (ix2 p q)
    = conv (V c main_v13) (V c main_arg0) (V c main_arg2) (rowOf (V c main_v14)) (V c main_arg4) (((cfg0.win 5).blk t).view.emb (ix2 p q))
  refine (pay_apply (iblk0 V c 0 t) (iblk0 V c 1 t) (iblk0 V c 2 t) (iblk0 V c 4 t) (iblk0 V c 3 t) p q).trans ?_
  have out_at : ((cfg0.win 5).blk t).view.emb (ix2 p q) = ix2 r q := funext fun a => Fin.ext (by
    match a with
    | ⟨0, _⟩ => show win0_5.index t (0 : Fin 2) * 5000 + 1 * p.val = r.val; omega
    | ⟨1, _⟩ => show win0_5.index t (1 : Fin 2) * 128 + 1 * q.val = q.val; omega)
  have agg_at : ∀ k : Fin 128, iblk0 V c 0 t (ix2 p k) = V c main_v13 (ix2 r k) := fun k => by
    show V c main_v13 (((cfg0.win 0).blk t).view.emb (ix2 p k)) = V c main_v13 (ix2 r k)
    refine congrArg (V c main_v13) (funext fun a => Fin.ext ?_)
    match a with
    | ⟨0, _⟩ => show win0_0.index t (0 : Fin 2) * 5000 + 1 * p.val = r.val; omega
    | ⟨1, _⟩ => show win0_0.index t (1 : Fin 2) * 128 + 1 * k.val = k.val; omega
  have feat_at : ∀ k : Fin 128, iblk0 V c 1 t (ix2 p k) = V c main_arg0 (ix2 r k) := fun k => by
    show V c main_arg0 (((cfg0.win 1).blk t).view.emb (ix2 p k)) = V c main_arg0 (ix2 r k)
    refine congrArg (V c main_arg0) (funext fun a => Fin.ext ?_)
    match a with
    | ⟨0, _⟩ => show win0_1.index t (0 : Fin 2) * 5000 + 1 * p.val = r.val; omega
    | ⟨1, _⟩ => show win0_1.index t (1 : Fin 2) * 128 + 1 * k.val = k.val; omega
  have wrel_at : ∀ k : Fin 128, iblk0 V c 2 t (ix2 k q) = V c main_arg2 (ix2 k q) := fun k => by
    show V c main_arg2 (((cfg0.win 2).blk t).view.emb (ix2 k q)) = V c main_arg2 (ix2 k q)
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  have wroot_at : ∀ k : Fin 128, iblk0 V c 4 t (ix2 k q) = V c main_arg4 (ix2 k q) := fun k => by
    show V c main_arg4 (((cfg0.win 4).blk t).view.emb (ix2 k q)) = V c main_arg4 (ix2 k q)
    refine congrArg (V c main_arg4) (funext fun a => Fin.ext ?_)
    match a with
    | ⟨0, _⟩ => show win0_4.index t (0 : Fin 2) * 128 + 1 * k.val = k.val; omega
    | ⟨1, _⟩ => show win0_4.index t (1 : Fin 2) * 128 + 1 * q.val = q.val; omega
  have bias_at : iblk0 V c 3 t (ix2 (0 : Fin 1) q) = V c main_v14 (ix2 (0 : Fin 1) q) := by
    show V c main_v14 (((cfg0.win 3).blk t).view.emb (ix2 (0 : Fin 1) q)) = V c main_v14 (ix2 (0 : Fin 1) q)
    refine congrArg (V c main_v14) (funext fun a => Fin.ext ?_)
    match a with
    | ⟨0, _⟩ => show win0_3.index t (0 : Fin 2) * 1 + 1 * 0 = 0; omega
    | ⟨1, _⟩ => show win0_3.index t (1 : Fin 2) * 128 + 1 * q.val = q.val; omega
  rw [out_at, conv_entry, rowOf_entry]
  simp only [agg_at, feat_at, wrel_at, wroot_at, bias_at]

/-! ## The twenty blocks fill the array -/

/-- An entry of the output array is in point `t`'s block iff each coordinate is in the block's range on its axis. -/
theorem mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v15).slice (win0_5.rect t)).set ↔ _
  rw [View.set_slice_whole, Rect.mem_set_unit]
  exact Iff.rfl

/-- Row `r` of the output array lies in the block of grid point `r / 5000`, and every point writes its block back. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨-, -, -, -, -, -, -, -, -, -, a50, a51⟩ := block_index t
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- After region 0, its output array holds the layer's function of the arrays the region was entered with. -/
theorem region_value (c : Dev nD) :
    (dat0 (F := Ideal) V c).arrAt 5 cfg0.N
      = conv (V c main_v13) (V c main_arg0) (V c main_arg2) (rowOf (V c main_v14)) (V c main_arg4) :=
  (dat0 (F := Ideal) V c).arrAt_eq_of_cover 5
    (conv (V c main_v13) (V c main_arg0) (V c main_arg2) (rowOf (V c main_v14)) (V c main_arg4))
    (fun t _ => flushed_eq V c t) covered

end Cert.KernelIdeal.Conv0

end
-- ==== Proof.Conv1.lean ====
import proofs.«179810_j1520418422913_1_alg».proof.Proof.Gen.KernelIdeal.Frame
import proofs.«179810_j1520418422913_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Conv1

open Cert.KernelIdeal Cert.KernelIdeal.Gen Cert.GraphSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The contraction read at an index

The dimension numbers contract the block's axis 1 with the weight's axis 0: the left operand is read at
(row of the output, contracted coordinate), the right one at (contracted coordinate, column of the output). -/

theorem lhs_axis0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
theorem rhs_axis0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
theorem rhs_axis1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 block times a 128 × 128 matrix, accumulated onto zero, at entry (p, q): the plain sum of the 128 products
    along row p of the block and column q of the matrix. -/
theorem matmul_zero_apply {φ₁ φ₂ : FTy} (x : FVec Ideal S5000x128 φ₁) (w : FVec Ideal S128x128 φ₂) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The body's payload at an index -/

/-- The value the body stores at entry (p, q) of its output block: both products, summed, plus the bias of column q,
    rectified. The roundings to the narrower format and the shape casts to the same shape are identities here. -/
theorem pay_apply (x0 x1 : Vec Ideal S5000x128 .f32) (w w' : Vec Ideal S128x128 .f32) (b : Vec Ideal S1x128 .f32)
    (p : Fin 5000) (q : Fin 128) :
    k1_pay1 (F := Ideal) x0 x1 w w' b (ix2 p q)
      = max ((∑ k : Fin 128, x0 (ix2 p k) * w (ix2 k q) + ∑ k : Fin 128, x1 (ix2 p k) * w' (ix2 k q)) + b (ix2 0 q)) 0 := by
  unfold k1_pay1
  simp only [shapeCast_self]
  rw [maximumf_apply, addf_apply, addf_apply, broadcast_apply, matmul_zero_apply, matmul_zero_apply]
  rw [broadcastTo_apply b broadcasts_S1x128_S5000x128 (ix2 p q) (ix2 0 q) (fun a => by
    match a with
    | ⟨0, _⟩ => rfl
    | ⟨1, _⟩ => rfl)]
  simp only [truncf_apply]
  show max _ (Ideal.ofBits .f32 0x00000000#32) = _
  rw [Ideal.ofBits_zero_f32]

/-! ## From the blocks to the array

Point t of the grid reads rows 5000 t … 5000 t + 4999 of the two feature arrays and the whole of both weights and of the
bias, and writes back rows 5000 t … 5000 t + 4999 of the output. The twenty row blocks tile the 100000 rows. -/

theorem origin_zero : (![0, 0] : Fin 2 → Nat) = fun _ => 0 := funext fun a => by fin_cases a <;> rfl

/-- The layer's function of the arrays the region is entered with. -/
abbrev layerOf (c : Dev nD) : S100000x128.Idx → Elt Ideal .f32 :=
  conv (V c main_v25) (V c main_v15) (V c main_arg5) (rowOf (V c main_v26)) (V c main_arg7)

/-- The block index of every window at every point of the grid: the row blocks are at (t, 0), the weights and the
    bias at (0, 0). -/
theorem block_index : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the layer's function. -/
theorem flushed_eq (c : Dev nD) (t : Fin cfg1.N) :
    (dat1 (F := Ideal) V c).flushed 5 t = ((cfg1.win 5).blk t).view.read (Elt Ideal) (layerOf V c) := by
  show (cfg1.win 5).cut (grid1.coords t) ((dat1 (F := Ideal) V c).after 5 t) = _
  rw [after1_5]
  unfold out1_5
  rw [View.canon_unit_zero origin_zero]
  simp only [View.ld_unit_zero (S := S5000x128) origin_zero, View.ld_unit_zero (S := S128x128) origin_zero,
    View.ld_unit_zero (S := S1x128) origin_zero]
  obtain ⟨a00, a01, a10, a11, a20, a21, a30, a31, a40, a41, a50, a51⟩ := block_index t
  funext j
  obtain ⟨p, q, rfl⟩ : ∃ (p : Fin 5000) (q : Fin 128), j = ix2 p q := ⟨j 0, j 1, eq_ix2 j⟩
  refine (pay_apply (iblk1 V c 0 t) (iblk1 V c 1 t) (iblk1 V c 2 t) (iblk1 V c 4 t) (iblk1 V c 3 t) p q).trans ?_
  show _ = layerOf V c (((cfg1.win 5).blk t).view.emb (ix2 p q))
  have r0 : ∀ k : Fin 128, iblk1 V c 0 t (ix2 p k)
      = V c main_v25 (ix2 ((((cfg1.win 5).blk t).view.emb (ix2 p q)) 0) k) := fun k => by
    show V c main_v25 (((cfg1.win 0).blk t).view.emb (ix2 p k)) = _
    refine congrArg (V c main_v25) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  have r1 : ∀ k : Fin 128, iblk1 V c 1 t (ix2 p k)
      = V c main_v15 (ix2 ((((cfg1.win 5).blk t).view.emb (ix2 p q)) 0) k) := fun k => by
    show V c main_v15 (((cfg1.win 1).blk t).view.emb (ix2 p k)) = _
    refine congrArg (V c main_v15) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  have r2 : ∀ k : Fin 128, iblk1 V c 2 t (ix2 k q)
      = V c main_arg5 (ix2 k ((((cfg1.win 5).blk t).view.emb (ix2 p q)) 1)) := fun k => by
    show V c main_arg5 (((cfg1.win 2).blk t).view.emb (ix2 k q)) = _
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * q.val = win1_5.index t (1 : Fin 2) * 128 + 1 * q.val; omega
  have r4 : ∀ k : Fin 128, iblk1 V c 4 t (ix2 k q)
      = V c main_arg7 (ix2 k ((((cfg1.win 5).blk t).view.emb (ix2 p q)) 1)) := fun k => by
    show V c main_arg7 (((cfg1.win 4).blk t).view.emb (ix2 k q)) = _
    refine congrArg (V c main_arg7) (funext fun a => Fin.ext ?_)
    match a with
    | ⟨0, _⟩ => show win1_4.index t (0 : Fin 2) * 128 + 1 * k.val = k.val; omega
    | ⟨1, _⟩ => show win1_4.index t (1 : Fin 2) * 128 + 1 * q.val = win1_5.index t (1 : Fin 2) * 128 + 1 * q.val; omega
  have r3 : iblk1 V c 3 t (ix2 0 q)
      = V c main_v26 (ix2 0 ((((cfg1.win 5).blk t).view.emb (ix2 p q)) 1)) := by
    show V c main_v26 (((cfg1.win 3).blk t).view.emb (ix2 0 q)) = _
    refine congrArg (V c main_v26) (funext fun a => Fin.ext ?_)
    match a with
    | ⟨0, _⟩ => show win1_3.index t (0 : Fin 2) * 1 + 1 * 0 = 0; omega
    | ⟨1, _⟩ => show win1_3.index t (1 : Fin 2) * 128 + 1 * q.val = win1_5.index t (1 : Fin 2) * 128 + 1 * q.val; omega
  simp only [r0, r1, r2, r3, r4]
  rfl

/-- An index of the array is in point t's block iff each coordinate is in the block's range on its axis. -/
theorem mem_block (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v27).slice (win1_5.rect t)).set ↔ _
  rw [View.set_slice_whole, Rect.mem_set_unit]
  exact Iff.rfl

/-- Every index of the array is in the block of the point its row falls in: row r is in block r / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 5000 < cfg1.N := by rw [show cfg1.N = 20 from N_1]; omega
  obtain ⟨-, -, -, -, -, -, -, -, -, -, a50, a51⟩ := block_index ⟨(i 0).val / 5000, ht⟩
  have b0 : win1_5.index ⟨(i 0).val / 5000, ht⟩ (0 : Fin 2) = (i 0).val / 5000 := a50
  refine ⟨⟨(i 0).val / 5000, ht⟩, flush1_5 _, ?_⟩
  rw [mem_block]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    omega

/-- After region 1, its output array holds the layer's function of the arrays the region was entered with. -/
theorem region_value (c : Dev nD) :
    (dat1 (F := Ideal) V c).arrAt 5 cfg1.N
      = conv (V c main_v25) (V c main_v15) (V c main_arg5) (rowOf (V c main_v26)) (V c main_arg7) :=
  (dat1 (F := Ideal) V c).arrAt_eq_of_cover 5 (layerOf V c) (fun t _ => flushed_eq V c t) cover

end Cert.KernelIdeal.Conv1

end
-- ==== Proof.Conv2.lean ====
import proofs.«179810_j1520418422913_1_alg».proof.Proof.Gen.KernelIdeal.Frame
import proofs.«179810_j1520418422913_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Conv2

open Cert.KernelIdeal Cert.KernelIdeal.Gen Cert.GraphSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The contraction read at an index

The dimension numbers contract the block's axis 1 with the weight's axis 0: the left operand is read at
(row of the output, contracted coordinate), the right one at (contracted coordinate, column of the output). -/

theorem lhs_axis0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
theorem rhs_axis0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
theorem rhs_axis1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 block times a 128 × 128 matrix, accumulated onto zero, at entry (p, q): the plain sum of the 128 products
    along row p of the block and column q of the matrix. -/
theorem matmul_zero_apply {φ₁ φ₂ : FTy} (x : FVec Ideal S5000x128 φ₁) (w : FVec Ideal S128x128 φ₂) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The body's payload at an index -/

/-- The value the body stores at entry (p, q) of its output block: both products, summed, plus the bias of column q,
    rectified. The roundings to the narrower format and the shape casts to the same shape are identities here. -/
theorem pay_apply (x0 x1 : Vec Ideal S5000x128 .f32) (w w' : Vec Ideal S128x128 .f32) (b : Vec Ideal S1x128 .f32)
    (p : Fin 5000) (q : Fin 128) :
    k2_pay1 (F := Ideal) x0 x1 w w' b (ix2 p q)
      = max ((∑ k : Fin 128, x0 (ix2 p k) * w (ix2 k q) + ∑ k : Fin 128, x1 (ix2 p k) * w' (ix2 k q)) + b (ix2 0 q)) 0 := by
  unfold k2_pay1
  simp only [shapeCast_self]
  rw [maximumf_apply, addf_apply, addf_apply, broadcast_apply, matmul_zero_apply, matmul_zero_apply]
  rw [broadcastTo_apply b broadcasts_S1x128_S5000x128 (ix2 p q) (ix2 0 q) (fun a => by
    match a with
    | ⟨0, _⟩ => rfl
    | ⟨1, _⟩ => rfl)]
  simp only [truncf_apply]
  show max _ (Ideal.ofBits .f32 0x00000000#32) = _
  rw [Ideal.ofBits_zero_f32]

/-! ## From the blocks to the array

Point t of the grid reads rows 5000 t … 5000 t + 4999 of the two feature arrays and the whole of both weights and of the
bias, and writes back rows 5000 t … 5000 t + 4999 of the output. The twenty row blocks tile the 100000 rows. -/

theorem origin_zero : (![0, 0] : Fin 2 → Nat) = fun _ => 0 := funext fun a => by fin_cases a <;> rfl

/-- The layer's function of the arrays the region is entered with. -/
abbrev layerOf (c : Dev nD) : S100000x128.Idx → Elt Ideal .f32 :=
  conv (V c main_v37) (V c main_v27) (V c main_arg8) (rowOf (V c main_v38)) (V c main_arg10)

/-- The block index of every window at every point of the grid: the row blocks are at (t, 0), the weights and the
    bias at (0, 0). -/
theorem block_index : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of the layer's function. -/
theorem flushed_eq (c : Dev nD) (t : Fin cfg2.N) :
    (dat2 (F := Ideal) V c).flushed 5 t = ((cfg2.win 5).blk t).view.read (Elt Ideal) (layerOf V c) := by
  show (cfg2.win 5).cut (grid2.coords t) ((dat2 (F := Ideal) V c).after 5 t) = _
  rw [after2_5]
  unfold out2_5
  rw [View.canon_unit_zero origin_zero]
  simp only [View.ld_unit_zero (S := S5000x128) origin_zero, View.ld_unit_zero (S := S128x128) origin_zero,
    View.ld_unit_zero (S := S1x128) origin_zero]
  obtain ⟨a00, a01, a10, a11, a20, a21, a30, a31, a40, a41, a50, a51⟩ := block_index t
  funext j
  obtain ⟨p, q, rfl⟩ : ∃ (p : Fin 5000) (q : Fin 128), j = ix2 p q := ⟨j 0, j 1, eq_ix2 j⟩
  refine (pay_apply (iblk2 V c 0 t) (iblk2 V c 1 t) (iblk2 V c 2 t) (iblk2 V c 4 t) (iblk2 V c 3 t) p q).trans ?_
  show _ = layerOf V c (((cfg2.win 5).blk t).view.emb (ix2 p q))
  have r0 : ∀ k : Fin 128, iblk2 V c 0 t (ix2 p k)
      = V c main_v37 (ix2 ((((cfg2.win 5).blk t).view.emb (ix2 p q)) 0) k) := fun k => by
    show V c main_v37 (((cfg2.win 0).blk t).view.emb (ix2 p k)) = _
    refine congrArg (V c main_v37) (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  have r1 : ∀ k : Fin 128, iblk2 V c 1 t (ix2 p k)
      = V c main_v27 (ix2 ((((cfg2.win 5).blk t).view.emb (ix2 p q)) 0) k) := fun k => by
    show V c main_v27 (((cfg2.win 1).blk t).view.emb (ix2 p k)) = _
    refine congrArg (V c main_v27) (funext fun a => Fin.ext ?_)
    match a with
    | ⟨0, _⟩ => show win2_1.index t (0 : Fin 2) * 5000 + 1 * p.val = win2_5.index t (0 : Fin 2) * 5000 + 1 * p.val; omega
    | ⟨1, _⟩ => show win2_1.index t (1 : Fin 2) * 128 + 1 * k.val = k.val; omega
  have r2 : ∀ k : Fin 128, iblk2 V c 2 t (ix2 k q)
      = V c main_arg8 (ix2 k ((((cfg2.win 5).blk t).view.emb (ix2 p q)) 1)) := fun k => by
    show V c main_arg8 (((cfg2.win 2).blk t).view.emb (ix2 k q)) = _
    refine congrArg (V c main_arg8) (funext fun a => Fin.ext ?_)
    match a with
    | ⟨0, _⟩ => show win2_2.index t (0 : Fin 2) * 128 + 1 * k.val = k.val; omega
    | ⟨1, _⟩ => show win2_2.index t (1 : Fin 2) * 128 + 1 * q.val = win2_5.index t (1 : Fin 2) * 128 + 1 * q.val; omega
  have r4 : ∀ k : Fin 128, iblk2 V c 4 t (ix2 k q)
      = V c main_arg10 (ix2 k ((((cfg2.win 5).blk t).view.emb (ix2 p q)) 1)) := fun k => by
    show V c main_arg10 (((cfg2.win 4).blk t).view.emb (ix2 k q)) = _
    refine congrArg (V c main_arg10) (funext fun a => Fin.ext ?_)
    match a with
    | ⟨0, _⟩ => show win2_4.index t (0 : Fin 2) * 128 + 1 * k.val = k.val; omega
    | ⟨1, _⟩ => show win2_4.index t (1 : Fin 2) * 128 + 1 * q.val = win2_5.index t (1 : Fin 2) * 128 + 1 * q.val; omega
  have r3 : iblk2 V c 3 t (ix2 0 q)
      = V c main_v38 (ix2 0 ((((cfg2.win 5).blk t).view.emb (ix2 p q)) 1)) := by
    show V c main_v38 (((cfg2.win 3).blk t).view.emb (ix2 0 q)) = _
    refine congrArg (V c main_v38) (funext fun a => Fin.ext ?_)
    match a with
    | ⟨0, _⟩ => show win2_3.index t (0 : Fin 2) * 1 + 1 * 0 = 0; omega
    | ⟨1, _⟩ => show win2_3.index t (1 : Fin 2) * 128 + 1 * q.val = win2_5.index t (1 : Fin 2) * 128 + 1 * q.val; omega
  simp only [r0, r1, r2, r3, r4]
  rfl

/-- An index of the array is in point t's block iff each coordinate is in the block's range on its axis. -/
theorem mem_block (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v39).slice (win2_5.rect t)).set ↔ _
  rw [View.set_slice_whole, Rect.mem_set_unit]
  exact Iff.rfl

/-- Every index of the array is in the block of the point its row falls in: row r is in block r / 5000. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have ht : (i 0).val / 5000 < cfg2.N := by rw [show cfg2.N = 20 from N_2]; omega
  obtain ⟨-, -, -, -, -, -, -, -, -, -, a50, a51⟩ := block_index ⟨(i 0).val / 5000, ht⟩
  have b0 : win2_5.index ⟨(i 0).val / 5000, ht⟩ (0 : Fin 2) = (i 0).val / 5000 := a50
  refine ⟨⟨(i 0).val / 5000, ht⟩, flush2_5 _, ?_⟩
  rw [mem_block]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    omega

/-- After region 2, its output array holds the layer's function of the arrays the region was entered with. -/
theorem region_value (c : Dev nD) :
    (dat2 (F := Ideal) V c).arrAt 5 cfg2.N
      = conv (V c main_v37) (V c main_v27) (V c main_arg8) (rowOf (V c main_v38)) (V c main_arg10) :=
  (dat2 (F := Ideal) V c).arrAt_eq_of_cover 5 (layerOf V c) (fun t _ => flushed_eq V c t) cover

end Cert.KernelIdeal.Conv2

end
-- ==== Proof.Cls3.lean ====
import proofs.«179810_j1520418422913_1_alg».proof.Proof.Gen.KernelIdeal.Frame
import proofs.«179810_j1520418422913_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Cls3

open Cert.KernelIdeal Cert.KernelIdeal.Gen Cert.GraphSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-!
  The classifier region.  Each of the twenty grid points loads a block of 5000 rows of the features together with the
  two weights and the two one-row biases (whole arrays), and stores `max (x · W0 + b0, 0) · W1 + b1` for its rows.  On
  the extended reals every product is a plain sum over the 128 contracted coordinates and a change of float format is
  the identity, so the stored block is, entry by entry, the classifier's formula over the block's rows; a block's row
  `p` at point `t` is the array's row `t · 5000 + p`, and the twenty row blocks tile the 100000 rows.  Hence the output
  array ends as the classifier of the arrays the region was entered with.
-/

/-! ## The two products, read at an index -/

/-- In the hidden layer's product (5000×128 by 128×128), the left operand's row coordinate is the output's row. -/
theorem lhs_hidden_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contracted position. -/
theorem lhs_hidden_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contracted position. -/
theorem rhs_hidden_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column. -/
theorem rhs_hidden_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The hidden layer's product into a zero accumulator, at row `p`, column `q`: the sum over the 128 contracted coordinates. -/
theorem product_hidden_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_hidden_0 _ _
    | ⟨1, _⟩ => exact (lhs_hidden_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_hidden_0 _ _).trans hk
    | ⟨1, _⟩ => exact rhs_hidden_1 _ _)
  rw [el, er]

/-- In the output layer's product (5000×128 by 128×32), the left operand's row coordinate is the output's row. -/
theorem lhs_out_0 (i : S5000x32.Idx) (q : dot_S5000x128_S128x32_S5000x32_1_0_0_1_n_n.contr.Idx) :
    (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
/-- The left operand's column coordinate is the contracted position. -/
theorem lhs_out_1 (i : S5000x32.Idx) (q : dot_S5000x128_S128x32_S5000x32_1_0_0_1_n_n.contr.Idx) :
    (dot_S5000x128_S128x32_S5000x32_1_0_0_1_n_n.lhsIdx i q 1).val = (q ⟨0, by decide⟩).val :=
  dot_S5000x128_S128x32_S5000x32_1_0_0_1_n_n.lhsIdx_val_of_single rfl i q
/-- The right operand's row coordinate is the contracted position. -/
theorem rhs_out_0 (i : S5000x32.Idx) (q : dot_S5000x128_S128x32_S5000x32_1_0_0_1_n_n.contr.Idx) :
    (dot_S5000x128_S128x32_S5000x32_1_0_0_1_n_n.rhsIdx i q 0).val = (q ⟨0, by decide⟩).val :=
  dot_S5000x128_S128x32_S5000x32_1_0_0_1_n_n.rhsIdx_val_of_single rfl i q
/-- The right operand's column coordinate is the output's column. -/
theorem rhs_out_1 (i : S5000x32.Idx) (q : dot_S5000x128_S128x32_S5000x32_1_0_0_1_n_n.contr.Idx) :
    (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- The output layer's product into a zero accumulator, at row `p`, column `q`: the sum over the 128 contracted coordinates. -/
theorem product_out_apply (x : FVec Ideal S5000x128 .bf16) (w : FVec Ideal S128x32 .bf16) (p : Fin 5000) (q : Fin 32) :
    matmul dot_S5000x128_S128x32_S5000x32_1_0_0_1_n_n none x w (constant (F := Ideal) S5000x32 .f32 0x00000000#32) (ix2 p q)
      = ∑ k : Fin 128, x (ix2 p k) * w (ix2 k q) := by
  simp only [matmul]
  rw [Ideal.matmul_constant_zero_apply, ← Equiv.sum_comp (contrEquiv1 dot_S5000x128_S128x32_S5000x32_1_0_0_1_n_n 128 rfl rfl).symm]
  refine Finset.sum_congr rfl fun k _ => ?_
  have hk := contrEquiv1_symm_val dot_S5000x128_S128x32_S5000x32_1_0_0_1_n_n 128 rfl rfl k
  have el : dot_S5000x128_S128x32_S5000x32_1_0_0_1_n_n.lhsIdx (ix2 p q) ((contrEquiv1 dot_S5000x128_S128x32_S5000x32_1_0_0_1_n_n 128 rfl rfl).symm k) = ix2 p k := funext fun a => Fin.ext (by
    match a with
    | ⟨0, _⟩ => exact lhs_out_0 _ _
    | ⟨1, _⟩ => exact (lhs_out_1 _ _).trans hk)
  have er : dot_S5000x128_S128x32_S5000x32_1_0_0_1_n_n.rhsIdx (ix2 p q) ((contrEquiv1 dot_S5000x128_S128x32_S5000x32_1_0_0_1_n_n 128 rfl rfl).symm k) = ix2 k q := funext fun a => Fin.ext (by
    match a with
    | ⟨0, _⟩ => exact (rhs_out_0 _ _).trans hk
    | ⟨1, _⟩ => exact rhs_out_1 _ _)
  rw [el, er]

/-! ## The payload at an index -/

/-- The classifier's payload at row `p`, column `q` of a block: the hidden layer's rectified row times the second
    weight's column, plus the second bias.  The hidden value at `(p, k)` is `max (Σₗ x p l · w0 l k + b0 k, 0)`. -/
theorem payload_apply (x0 : Vec Ideal S5000x128 .f32) (w0 : Vec Ideal S128x128 .f32) (b0 : Vec Ideal S1x128 .f32)
    (w1 : Vec Ideal S128x32 .f32) (b1 : Vec Ideal S1x32 .f32) (p : Fin 5000) (q : Fin 32) :
    k3_pay1 (F := Ideal) x0 w0 b0 w1 b1 (ix2 p q)
      = (∑ k : Fin 128, max ((∑ l : Fin 128, x0 (ix2 p l) * w0 (ix2 l k)) + b0 (ix2 (0 : Fin 1) k)) 0 * w1 (ix2 k q))
          + b1 (ix2 (0 : Fin 1) q) := by
  unfold k3_pay1
  simp only [shapeCast_self]
  rw [addf_apply, product_out_apply, broadcastTo_1b_ab_apply]
  refine congrArg (· + b1 (ix2 (0 : Fin 1) q)) (Finset.sum_congr rfl fun k _ => ?_)
  rw [truncf_apply, truncf_apply, maximumf_apply, addf_apply, product_hidden_apply, broadcastTo_1b_ab_apply, broadcast_apply]
  simp only [truncf_apply]
  show max _ (Ideal.ofBits .f32 0x00000000#32) * _ = _
  rw [Ideal.ofBits_zero_f32]

/-! ## From the blocks to the array -/

/-- A whole-block access starts at offset zero on both axes. -/
theorem zero_offsets : (![0, 0] : Fin 2 → Nat) = fun _ => 0 := funext fun a => by fin_cases a <;> rfl

/-- The block indices of the region's windows, decided over the grid: the feature window and the output window sit at
    row block `t`, column block 0; the weights and the biases are whole arrays, at block (0, 0). -/
theorem block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Every row block of the output is some point's. -/
theorem row_block_onto : ∀ b : Fin 20, ∃ t : Fin cfg3.N, win3_5.index t = ![b.val, 0] :=
  (by decide +kernel : ∀ b : Fin 20, ∃ t : Fin grid3.N, win3_5.index t = ![b.val, 0])

/-- The classifier at row `r`, column `q`, with the biases given as one-row matrices. -/
theorem cls_apply (h : Mat 100000 128) (w0 : Mat 128 128) (b0 : Mat 1 128) (w1 : Mat 128 32) (b1 : Mat 1 32)
    (r : Fin 100000) (q : Fin 32) :
    cls h w0 (rowOf b0) w1 (rowOf b1) (ix2 r q)
      = (∑ k : Fin 128, max ((∑ l : Fin 128, h (ix2 r l) * w0 (ix2 l k)) + b0 (ix2 (0 : Fin 1) k)) 0 * w1 (ix2 k q))
          + b1 (ix2 (0 : Fin 1) q) := rfl

/-- Row `p` of the feature block at point `t` is row `t · 5000 + p` of the feature array. -/
theorem features_block (c : Dev nD) (t : Fin cfg3.N) (p : Fin 5000) (l : Fin 128) (r : Fin 100000)
    (hr : r.val = t.val * 5000 + p.val) :
    iblk3 (F := Ideal) V c 0 t (ix2 p l) = V c main_v39 (ix2 r l) := by
  obtain ⟨e0, e1, -⟩ := block_indices t
  show V c main_v39 (((cfg3.win 0).blk t).view.emb (ix2 p l)) = V c main_v39 (ix2 r l)
  refine congrArg (V c main_v39) (funext fun a => Fin.ext ?_)
  match a with
  | ⟨0, _⟩ => show win3_0.index t (0 : Fin 2) * 5000 + 1 * p.val = r.val; omega
  | ⟨1, _⟩ => show win3_0.index t (1 : Fin 2) * 128 + 1 * l.val = l.val; omega

/-- The first weight's window is the whole array at every point. -/
theorem weight0_block (c : Dev nD) (t : Fin cfg3.N) (a0 : Fin 128) (a1 : Fin 128) :
    iblk3 (F := Ideal) V c 1 t (ix2 a0 a1) = V c main_arg11 (ix2 a0 a1) := by
  obtain ⟨-, -, e0, e1, -⟩ := block_indices t
  show V c main_arg11 (((cfg3.win 1).blk t).view.emb (ix2 a0 a1)) = V c main_arg11 (ix2 a0 a1)
  refine congrArg (V c main_arg11) (funext fun a => Fin.ext ?_)
  match a with
  | ⟨0, _⟩ => show win3_1.index t (0 : Fin 2) * 128 + 1 * a0.val = a0.val; omega
  | ⟨1, _⟩ => show win3_1.index t (1 : Fin 2) * 128 + 1 * a1.val = a1.val; omega

/-- The first bias's window is the whole one-row array at every point. -/
theorem bias0_block (c : Dev nD) (t : Fin cfg3.N) (a0 : Fin 1) (a1 : Fin 128) :
    iblk3 (F := Ideal) V c 2 t (ix2 a0 a1) = V c main_v40 (ix2 a0 a1) := by
  obtain ⟨-, -, -, -, e0, e1, -⟩ := block_indices t
  show V c main_v40 (((cfg3.win 2).blk t).view.emb (ix2 a0 a1)) = V c main_v40 (ix2 a0 a1)
  refine congrArg (V c main_v40) (funext fun a => Fin.ext ?_)
  match a with
  | ⟨0, _⟩ => show win3_2.index t (0 : Fin 2) * 1 + 1 * a0.val = a0.val; omega
  | ⟨1, _⟩ => show win3_2.index t (1 : Fin 2) * 128 + 1 * a1.val = a1.val; omega

/-- The second weight's window is the whole array at every point. -/
theorem weight1_block (c : Dev nD) (t : Fin cfg3.N) (a0 : Fin 128) (a1 : Fin 32) :
    iblk3 (F := Ideal) V c 3 t (ix2 a0 a1) = V c main_arg13 (ix2 a0 a1) := by
  obtain ⟨-, -, -, -, -, -, e0, e1, -⟩ := block_indices t
  show V c main_arg13 (((cfg3.win 3).blk t).view.emb (ix2 a0 a1)) = V c main_arg13 (ix2 a0 a1)
  refine congrArg (V c main_arg13) (funext fun a => Fin.ext ?_)
  match a with
  | ⟨0, _⟩ => show win3_3.index t (0 : Fin 2) * 128 + 1 * a0.val = a0.val; omega
  | ⟨1, _⟩ => show win3_3.index t (1 : Fin 2) * 32 + 1 * a1.val = a1.val; omega

/-- The second bias's window is the whole one-row array at every point. -/
theorem bias1_block (c : Dev nD) (t : Fin cfg3.N) (a0 : Fin 1) (a1 : Fin 32) :
    iblk3 (F := Ideal) V c 4 t (ix2 a0 a1) = V c main_v41 (ix2 a0 a1) := by
  obtain ⟨-, -, -, -, -, -, -, -, e0, e1, -⟩ := block_indices t
  show V c main_v41 (((cfg3.win 4).blk t).view.emb (ix2 a0 a1)) = V c main_v41 (ix2 a0 a1)
  refine congrArg (V c main_v41) (funext fun a => Fin.ext ?_)
  match a with
  | ⟨0, _⟩ => show win3_4.index t (0 : Fin 2) * 1 + 1 * a0.val = a0.val; omega
  | ⟨1, _⟩ => show win3_4.index t (1 : Fin 2) * 32 + 1 * a1.val = a1.val; omega

/-- Row `p`, column `q` of the output block at point `t` is row `t · 5000 + p`, column `q` of the output array. -/
theorem out_block_emb (t : Fin cfg3.N) (p : Fin 5000) (q : Fin 32) (r : Fin 100000) (hr : r.val = t.val * 5000 + p.val) :
    ((cfg3.win 5).blk t).view.emb (ix2 p q) = ix2 r q := by
  obtain ⟨-, -, -, -, -, -, -, -, -, -, e0, e1⟩ := block_indices t
  funext a; apply Fin.ext
  match a with
  | ⟨0, _⟩ => show win3_5.index t (0 : Fin 2) * 5000 + 1 * p.val = r.val; omega
  | ⟨1, _⟩ => show win3_5.index t (1 : Fin 2) * 32 + 1 * q.val = q.val; omega

/-- WHAT POINT `t` WRITES BACK is block `t` of the classifier of the arrays the region was entered with: the body's one
    store is of the payload of the five loaded blocks; the payload at `(p, q)` is the classifier's formula over the
    blocks' entries, and each block entry is the array's entry at the place the block sits. -/
theorem flushed_eq (c : Dev nD) (t : Fin cfg3.N) :
    (dat3 (F := Ideal) V c).flushed 5 t
      = ((cfg3.win 5).blk t).view.read (Elt Ideal)
          (cls (V c main_v39) (V c main_arg11) (rowOf (V c main_v40)) (V c main_arg13) (rowOf (V c main_v41))) := by
  show (cfg3.win 5).cut (grid3.coords t) ((dat3 (F := Ideal) V c).after 5 t) = _
  rw [after3_5]
  unfold out3_5
  rw [View.canon_unit_zero zero_offsets]
  simp only [View.ld_unit_zero (S := S5000x128) zero_offsets, View.ld_unit_zero (S := S128x128) zero_offsets,
    View.ld_unit_zero (S := S1x128) zero_offsets, View.ld_unit_zero (S := S128x32) zero_offsets,
    View.ld_unit_zero (S := S1x32) zero_offsets]
  funext j
  obtain ⟨p, q, rfl⟩ : ∃ (p : Fin 5000) (q : Fin 32), j = ix2 p q := ⟨j 0, j 1, eq_ix2 j⟩
  have ht : t.val < 20 := lt_of_lt_of_eq t.isLt N_3
  have hp : p.val < 5000 := p.isLt
  let r : Fin 100000 := ⟨t.val * 5000 + p.val, by omega⟩
  have hr : r.val = t.val * 5000 + p.val := rfl
  refine (payload_apply (iblk3 V c 0 t) (iblk3 V c 1 t) (iblk3 V c 2 t) (iblk3 V c 3 t) (iblk3 V c 4 t) p q).trans ?_
  show _ = cls (V c main_v39) (V c main_arg11) (rowOf (V c main_v40)) (V c main_arg13) (rowOf (V c main_v41))
      (((cfg3.win 5).blk t).view.emb (ix2 p q))
  rw [out_block_emb t p q r hr]
  refine Eq.trans ?_ (cls_apply (V c main_v39) (V c main_arg11) (V c main_v40) (V c main_arg13) (V c main_v41) r q).symm
  refine congrArg₂ (fun a b : EReal => a + b) (Finset.sum_congr rfl fun k _ => ?_) (bias1_block V c t 0 q)
  refine congrArg₂ (fun a b : EReal => a * b) ?_ (weight1_block V c t k q)
  refine congrArg (fun a : EReal => max a 0) ?_
  refine congrArg₂ (fun a b : EReal => a + b) (Finset.sum_congr rfl fun l _ => ?_) (bias0_block V c t 0 k)
  exact congrArg₂ (fun a b : EReal => a * b) (features_block V c t p l r hr) (weight0_block V c t l k)

/-- An index of the output array is in point `t`'s block iff each coordinate is in the block's range on its axis. -/
theorem mem_block (t : Fin cfg3.N) (i : S100000x32.Idx) :
    i ∈ ((cfg3.win 5).blk t).view.set
      ↔ ∀ a : Fin 2, win3_5.index t a * S5000x32.size a ≤ (i a).val
          ∧ (i a).val < win3_5.index t a * S5000x32.size a + S5000x32.size a := by
  show i ∈ ((View.whole main_v42).slice (win3_5.rect t)).set ↔ _
  rw [View.set_slice_whole, Rect.mem_set_unit]
  exact Iff.rfl

/-- The twenty row blocks tile the output array: row `r` is in the block of point `r / 5000`. -/
theorem covered (i : S100000x32.Idx) :
    ∃ t : Fin cfg3.N, (cfg3.win 5).flush t = true ∧ i ∈ ((cfg3.win 5).blk t).view.set := by
  have hi0 : (i 0).val < 100000 := (i 0).isLt
  have hi1 : (i 1).val < 32 := (i 1).isLt
  obtain ⟨t, ht⟩ := row_block_onto ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_block]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 32 ≤ (i 1).val ∧ (i 1).val < win3_5.index t (1 : Fin 2) * 32 + 32
    omega

/-- After region 3, its output array holds the layer's function of the arrays the region was entered with. -/
theorem region_value (c : Dev nD) :
    (dat3 (F := Ideal) V c).arrAt 5 cfg3.N
      = cls (V c main_v39) (V c main_arg11) (rowOf (V c main_v40)) (V c main_arg13) (rowOf (V c main_v41)) :=
  (dat3 (F := Ideal) V c).arrAt_eq_of_cover 5
    (cls (V c main_v39) (V c main_arg11) (rowOf (V c main_v40)) (V c main_arg13) (rowOf (V c main_v41)))
    (fun t _ => flushed_eq V c t) covered

end Cert.KernelIdeal.Cls3

end
-- ==== Proof.Chain.lean ====
/-
  The kernel program's result, read back through its four regions.

  Between the regions the host computes, three times, the same neighbourhood sum: gather the rows of the current node
  features at the edges' sources and add them into the rows at the edges' destinations.  It is carried here as ONE
  function `agg e h` of the edge list `e` and the features `h`, never opened.  Region k then leaves
  `conv (agg e h) h W_rel b W_root` of the features it was entered with, and the last region the classifier of the third
  layer's features; the arguments reach every region unchanged because no host stretch and no region writes them.
-/
import proofs.«179810_j1520418422913_1_alg».proof.Proof.Gen.KernelIdeal.Frame
import proofs.«179810_j1520418422913_1_alg».proof.Proof.Spec
import proofs.«179810_j1520418422913_1_alg».proof.Proof.Conv0
import proofs.«179810_j1520418422913_1_alg».proof.Proof.Conv1
import proofs.«179810_j1520418422913_1_alg».proof.Proof.Conv2
import proofs.«179810_j1520418422913_1_alg».proof.Proof.Cls3
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Chain

open Cert.KernelIdeal Cert.KernelIdeal.Gen Cert.GraphSpec
open Idealize.ShloMosaic Idealize.ShloMosaic.TcCoe Idealize.ShloMosaic.ValueIdx Idealize.SL.Sem

/-! ## The neighbourhood sum -/

/-- The edge list: row 0 the sources, row 1 the destinations. -/
abbrev Edges : Type := (⟨S2x1600000, .i32⟩ : BufTy).Contents (Elt Ideal)
/-- One end of every edge. -/
abbrev Ends : Type := (⟨S1600000, .i32⟩ : BufTy).Contents (Elt Ideal)

/-- The edges' sources: row 0 of the edge list. -/
def srcOf (e : Edges) : Ends :=
  shapeCast S1600000 (extractStridedSlice S1x1600000 ![0, 0] e slices_S2x1600000_S1x1600000_0_0) shapeCasts_S1x1600000_S1600000
/-- The edges' destinations: row 1 of the edge list. -/
def dstOf (e : Edges) : Ends :=
  shapeCast S1600000 (extractStridedSlice S1x1600000 ![1, 0] e slices_S2x1600000_S1x1600000_1_0) shapeCasts_S1x1600000_S1600000

/-- The sum over the edges: rows of `h` gathered at the sources (a negative source counted from the end) and added into a
    zero array at the destinations. -/
def aggEnds (src dst : Ends) (h : Mat 100000 128) : Mat 100000 128 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The neighbourhood sum of the features `h` over the edge list `e`. -/
def agg (e : Edges) (h : Mat 100000 128) : Mat 100000 128 := aggEnds (srcOf e) (dstOf e) h

/-- A bias vector laid out as one row, read back as a vector. -/
theorem rowOf_row {n : Nat} (b : Row n) (h : (⟨1, ![n]⟩ : Shape).ShapeCasts ⟨2, ![1, n]⟩) :
    rowOf (shapeCast ⟨2, ![1, n]⟩ b h) = b := by
  funext j
  unfold rowOf
  rw [shapeCast_a_1a_apply b h 0 (j 0)]
  exact congrArg b (eq_ix1 j).symm

variable (m : (ℓ : Loc nD τ sig) → Buf (Elt Ideal) ℓ) (ρ : Dev nD → PrngReg)

/-! ## What each host stretch writes, and what it therefore leaves alone -/

/-- The buffers the first host stretch writes. -/
abbrev written0 : List (Ref sig .tc) :=
  [main_v0, main_v1, main_v2, main_v3, main_c, main_v4, main_v5, main_c_0, main_v6, main_v7, main_v8, main_v9, main_v10,
   main_cst, main_v11, main_v12, main_v13, main_v14]
/-- The buffers the second host stretch writes. -/
abbrev written1 : List (Ref sig .tc) :=
  [main_c_1, main_v16, main_v17, main_c_2, main_v18, main_v19, main_v20, main_v21, main_v22, main_cst_3, main_v23, main_v24,
   main_v25, main_v26]
/-- The buffers the third host stretch writes. -/
abbrev written2 : List (Ref sig .tc) :=
  [main_c_4, main_v28, main_v29, main_c_5, main_v30, main_v31, main_v32, main_v33, main_v34, main_cst_6, main_v35, main_v36,
   main_v37, main_v38]
/-- The buffers the last host stretch writes. -/
abbrev written3 : List (Ref sig .tc) := [main_v40, main_v41]

theorem written0_spec : (hostOps0 : List (HloOp τ sig (Elt Ideal))).Forall fun op =>
    op.writes ⊆ (written0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem written1_spec : (hostOps1 : List (HloOp τ sig (Elt Ideal))).Forall fun op =>
    op.writes ⊆ (written1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem written2_spec : (hostOps2 : List (HloOp τ sig (Elt Ideal))).Forall fun op =>
    op.writes ⊆ (written2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem written3_spec : (hostOps3 : List (HloOp τ sig (Elt Ideal))).Forall fun op =>
    op.writes ⊆ (written3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer the first host stretch does not write enters region 0 as launched. -/
theorem at1 (c : Dev nD) (r : Ref sig .tc) (h0 : r ∉ written0) :
    W1 m ρ c (Proc.devRef .tc r) = W0 m ρ c (Proc.devRef .tc r) :=
  StableHlo.after_of_writes_sub hostOps0 _ written0_spec h0
/-- … and leaves region 0 so, if it is none of that region's arrays. -/
theorem at2 (c : Dev nD) (r : Ref sig .tc) (h0 : r ∉ written0) (g0 : ∀ w, Pipeline.arrRef spec0 w ≠ r) :
    W2 m ρ c (Proc.devRef .tc r) = W0 m ρ c (Proc.devRef .tc r) :=
  (W2_of_ne m ρ c r g0).trans (at1 m ρ c r h0)
theorem at3 (c : Dev nD) (r : Ref sig .tc) (h0 : r ∉ written0) (g0 : ∀ w, Pipeline.arrRef spec0 w ≠ r) (h1 : r ∉ written1) :
    W3 m ρ c (Proc.devRef .tc r) = W0 m ρ c (Proc.devRef .tc r) :=
  (StableHlo.after_of_writes_sub hostOps1 _ written1_spec h1).trans (at2 m ρ c r h0 g0)
theorem at4 (c : Dev nD) (r : Ref sig .tc) (h0 : r ∉ written0) (g0 : ∀ w, Pipeline.arrRef spec0 w ≠ r) (h1 : r ∉ written1)
    (g1 : ∀ w, Pipeline.arrRef spec1 w ≠ r) : W4 m ρ c (Proc.devRef .tc r) = W0 m ρ c (Proc.devRef .tc r) :=
  (W4_of_ne m ρ c r g1).trans (at3 m ρ c r h0 g0 h1)
theorem at5 (c : Dev nD) (r : Ref sig .tc) (h0 : r ∉ written0) (g0 : ∀ w, Pipeline.arrRef spec0 w ≠ r) (h1 : r ∉ written1)
    (g1 : ∀ w, Pipeline.arrRef spec1 w ≠ r) (h2 : r ∉ written2) :
    W5 m ρ c (Proc.devRef .tc r) = W0 m ρ c (Proc.devRef .tc r) :=
  (StableHlo.after_of_writes_sub hostOps2 _ written2_spec h2).trans (at4 m ρ c r h0 g0 h1 g1)
theorem at6 (c : Dev nD) (r : Ref sig .tc) (h0 : r ∉ written0) (g0 : ∀ w, Pipeline.arrRef spec0 w ≠ r) (h1 : r ∉ written1)
    (g1 : ∀ w, Pipeline.arrRef spec1 w ≠ r) (h2 : r ∉ written2) (g2 : ∀ w, Pipeline.arrRef spec2 w ≠ r) :
    W6 m ρ c (Proc.devRef .tc r) = W0 m ρ c (Proc.devRef .tc r) :=
  (W6_of_ne m ρ c r g2).trans (at5 m ρ c r h0 g0 h1 g1 h2)
theorem at7 (c : Dev nD) (r : Ref sig .tc) (h0 : r ∉ written0) (g0 : ∀ w, Pipeline.arrRef spec0 w ≠ r) (h1 : r ∉ written1)
    (g1 : ∀ w, Pipeline.arrRef spec1 w ≠ r) (h2 : r ∉ written2) (g2 : ∀ w, Pipeline.arrRef spec2 w ≠ r) (h3 : r ∉ written3) :
    W7 m ρ c (Proc.devRef .tc r) = W0 m ρ c (Proc.devRef .tc r) :=
  (StableHlo.after_of_writes_sub hostOps3 _ written3_spec h3).trans (at6 m ρ c r h0 g0 h1 g1 h2 g2)

/-- What the first stretch wrote and nothing later touches (the edges' ends) is still there when the second stretch runs … -/
theorem from1_at2 (c : Dev nD) (r : Ref sig .tc) (g0 : ∀ w, Pipeline.arrRef spec0 w ≠ r) :
    W2 m ρ c (Proc.devRef .tc r) = W1 m ρ c (Proc.devRef .tc r) := W2_of_ne m ρ c r g0
/-- … and when the third runs. -/
theorem from1_at4 (c : Dev nD) (r : Ref sig .tc) (g0 : ∀ w, Pipeline.arrRef spec0 w ≠ r) (h1 : r ∉ written1)
    (g1 : ∀ w, Pipeline.arrRef spec1 w ≠ r) : W4 m ρ c (Proc.devRef .tc r) = W1 m ρ c (Proc.devRef .tc r) :=
  (W4_of_ne m ρ c r g1).trans ((StableHlo.after_of_writes_sub hostOps1 _ written1_spec h1).trans (W2_of_ne m ρ c r g0))

/-! ## The first stretch: the edges' ends, the first neighbourhood sum, the first bias row -/

/-- The launch contents of the edge list. -/
abbrev edges (c : Dev nD) : Edges := m ((c : Thread nD τ).loc main_arg1)

theorem src1 (c : Dev nD) : W1 m ρ c (Proc.devRef .tc main_v1) = srcOf (edges m c) := by
  show StableHlo.after hostOps0 (W0 m ρ c) (Proc.devRef .tc main_v1) = _
  after_results <;> rfl
theorem dst1 (c : Dev nD) : W1 m ρ c (Proc.devRef .tc main_v3) = dstOf (edges m c) := by
  show StableHlo.after hostOps0 (W0 m ρ c) (Proc.devRef .tc main_v3) = _
  after_results <;> rfl
theorem sum1 (c : Dev nD) :
    W1 m ρ c (Proc.devRef .tc main_v13) = agg (edges m c) (m ((c : Thread nD τ).loc main_arg0)) := by
  show StableHlo.after hostOps0 (W0 m ρ c) (Proc.devRef .tc main_v13) = _
  after_results <;> rfl
theorem bias1 (c : Dev nD) :
    W1 m ρ c (Proc.devRef .tc main_v14) = shapeCast S1x128 (m ((c : Thread nD τ).loc main_arg3)) shapeCasts_S128_S1x128 := by
  show StableHlo.after hostOps0 (W0 m ρ c) (Proc.devRef .tc main_v14) = _
  after_results <;> rfl

/-! ## The features after each layer -/

/-- The node features after the first layer. -/
def feat0 (c : Dev nD) : Mat 100000 128 :=
  layer (agg (edges m c)) (m ((c : Thread nD τ).loc main_arg0)) (m ((c : Thread nD τ).loc main_arg2))
    (m ((c : Thread nD τ).loc main_arg3)) (m ((c : Thread nD τ).loc main_arg4))
/-- … after the second. -/
def feat1 (c : Dev nD) : Mat 100000 128 :=
  layer (agg (edges m c)) (feat0 m c) (m ((c : Thread nD τ).loc main_arg5))
    (m ((c : Thread nD τ).loc main_arg6)) (m ((c : Thread nD τ).loc main_arg7))
/-- … after the third. -/
def feat2 (c : Dev nD) : Mat 100000 128 :=
  layer (agg (edges m c)) (feat1 m c) (m ((c : Thread nD τ).loc main_arg8))
    (m ((c : Thread nD τ).loc main_arg9)) (m ((c : Thread nD τ).loc main_arg10))

/-- Region 0 leaves the first layer's features. -/
theorem out2 (c : Dev nD) : W2 m ρ c (Proc.devRef .tc main_v15) = feat0 m c := by
  refine (W2_arr m ρ c 5).trans ((Conv0.region_value (V1 m ρ) c).trans ?_)
  show conv (W1 m ρ c (Proc.devRef .tc main_v13)) (W1 m ρ c (Proc.devRef .tc main_arg0)) (W1 m ρ c (Proc.devRef .tc main_arg2))
    (rowOf (W1 m ρ c (Proc.devRef .tc main_v14))) (W1 m ρ c (Proc.devRef .tc main_arg4)) = _
  rw [sum1, bias1, rowOf_row, at1 m ρ c main_arg0 (by decide), at1 m ρ c main_arg2 (by decide), at1 m ρ c main_arg4 (by decide)]
  rfl

/-- The second stretch: the neighbourhood sum of the first layer's features. -/
theorem sum3 (c : Dev nD) : W3 m ρ c (Proc.devRef .tc main_v25) = agg (edges m c) (feat0 m c) := by
  show StableHlo.after hostOps1 (W2 m ρ c) (Proc.devRef .tc main_v25) = _
  after_results
  rw [from1_at2 m ρ c main_v1 (by decide), from1_at2 m ρ c main_v3 (by decide), src1, dst1, out2]
  rfl
theorem bias3 (c : Dev nD) :
    W3 m ρ c (Proc.devRef .tc main_v26) = shapeCast S1x128 (m ((c : Thread nD τ).loc main_arg6)) shapeCasts_S128_S1x128 := by
  show StableHlo.after hostOps1 (W2 m ρ c) (Proc.devRef .tc main_v26) = _
  after_results
  rw [at2 m ρ c main_arg6 (by decide) (by decide)]
  rfl
theorem keep3 (c : Dev nD) : W3 m ρ c (Proc.devRef .tc main_v15) = feat0 m c :=
  (StableHlo.after_of_writes_sub hostOps1 _ written1_spec (by decide)).trans (out2 m ρ c)

/-- Region 1 leaves the second layer's features. -/
theorem out4 (c : Dev nD) : W4 m ρ c (Proc.devRef .tc main_v27) = feat1 m c := by
  refine (W4_arr m ρ c 5).trans ((Conv1.region_value (V3 m ρ) c).trans ?_)
  show conv (W3 m ρ c (Proc.devRef .tc main_v25)) (W3 m ρ c (Proc.devRef .tc main_v15)) (W3 m ρ c (Proc.devRef .tc main_arg5))
    (rowOf (W3 m ρ c (Proc.devRef .tc main_v26))) (W3 m ρ c (Proc.devRef .tc main_arg7)) = _
  rw [sum3, bias3, rowOf_row, keep3, at3 m ρ c main_arg5 (by decide) (by decide) (by decide),
    at3 m ρ c main_arg7 (by decide) (by decide) (by decide)]
  rfl

/-- The third stretch: the neighbourhood sum of the second layer's features. -/
theorem sum5 (c : Dev nD) : W5 m ρ c (Proc.devRef .tc main_v37) = agg (edges m c) (feat1 m c) := by
  show StableHlo.after hostOps2 (W4 m ρ c) (Proc.devRef .tc main_v37) = _
  after_results
  rw [from1_at4 m ρ c main_v1 (by decide) (by decide) (by decide), from1_at4 m ρ c main_v3 (by decide) (by decide) (by decide),
    src1, dst1, out4]
  rfl
theorem bias5 (c : Dev nD) :
    W5 m ρ c (Proc.devRef .tc main_v38) = shapeCast S1x128 (m ((c : Thread nD τ).loc main_arg9)) shapeCasts_S128_S1x128 := by
  show StableHlo.after hostOps2 (W4 m ρ c) (Proc.devRef .tc main_v38) = _
  after_results
  rw [at4 m ρ c main_arg9 (by decide) (by decide) (by decide) (by decide)]
  rfl
theorem keep5 (c : Dev nD) : W5 m ρ c (Proc.devRef .tc main_v27) = feat1 m c :=
  (StableHlo.after_of_writes_sub hostOps2 _ written2_spec (by decide)).trans (out4 m ρ c)

/-- Region 2 leaves the third layer's features. -/
theorem out6 (c : Dev nD) : W6 m ρ c (Proc.devRef .tc main_v39) = feat2 m c := by
  refine (W6_arr m ρ c 5).trans ((Conv2.region_value (V5 m ρ) c).trans ?_)
  show conv (W5 m ρ c (Proc.devRef .tc main_v37)) (W5 m ρ c (Proc.devRef .tc main_v27)) (W5 m ρ c (Proc.devRef .tc main_arg8))
    (rowOf (W5 m ρ c (Proc.devRef .tc main_v38))) (W5 m ρ c (Proc.devRef .tc main_arg10)) = _
  rw [sum5, bias5, rowOf_row, keep5, at5 m ρ c main_arg8 (by decide) (by decide) (by decide) (by decide) (by decide),
    at5 m ρ c main_arg10 (by decide) (by decide) (by decide) (by decide) (by decide)]
  rfl

/-- The last stretch lays the classifier's two bias vectors out as rows. -/
theorem bias7 (c : Dev nD) :
    W7 m ρ c (Proc.devRef .tc main_v40) = shapeCast S1x128 (m ((c : Thread nD τ).loc main_arg12)) shapeCasts_S128_S1x128 := by
  show StableHlo.after hostOps3 (W6 m ρ c) (Proc.devRef .tc main_v40) = _
  after_results
  rw [at6 m ρ c main_arg12 (by decide) (by decide) (by decide) (by decide) (by decide) (by decide)]
  rfl
theorem bias7' (c : Dev nD) :
    W7 m ρ c (Proc.devRef .tc main_v41) = shapeCast S1x32 (m ((c : Thread nD τ).loc main_arg14)) shapeCasts_S32_S1x32 := by
  show StableHlo.after hostOps3 (W6 m ρ c) (Proc.devRef .tc main_v41) = _
  after_results
  rw [at6 m ρ c main_arg14 (by decide) (by decide) (by decide) (by decide) (by decide) (by decide)]
  rfl
theorem keep7 (c : Dev nD) : W7 m ρ c (Proc.devRef .tc main_v39) = feat2 m c :=
  (StableHlo.after_of_writes_sub hostOps3 _ written3_spec (by decide)).trans (out6 m ρ c)

/-- THE RESULT: the last region leaves the classifier of the third layer's features — the whole network of the
    launch contents, over the kernel program's neighbourhood sum. -/
theorem out8 (c : Dev nD) :
    W8 m ρ c (Proc.devRef .tc main_v42)
      = net (agg (edges m c)) (m ((c : Thread nD τ).loc main_arg0))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13))
          (m ((c : Thread nD τ).loc main_arg14)) := by
  refine (W8_arr m ρ c 5).trans ((Cls3.region_value (V7 m ρ) c).trans ?_)
  show cls (W7 m ρ c (Proc.devRef .tc main_v39)) (W7 m ρ c (Proc.devRef .tc main_arg11)) (rowOf (W7 m ρ c (Proc.devRef .tc main_v40)))
    (W7 m ρ c (Proc.devRef .tc main_arg13)) (rowOf (W7 m ρ c (Proc.devRef .tc main_v41))) = _
  rw [keep7, bias7, bias7', rowOf_row, rowOf_row,
    at7 m ρ c main_arg11 (by decide) (by decide) (by decide) (by decide) (by decide) (by decide) (by decide),
    at7 m ρ c main_arg13 (by decide) (by decide) (by decide) (by decide) (by decide) (by decide) (by decide)]
  rfl

end Cert.KernelIdeal.Chain

end
-- ==== Proof.RefValue.lean ====
import proofs.«179810_j1520418422913_1_alg».proof.Proof.Gen.ReferenceIdeal.Read
import proofs.«179810_j1520418422913_1_alg».proof.Proof.Spec
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Read Cert.GraphSpec
open Idealize.ShloMosaic Idealize.ShloMosaic.TcCoe Idealize.ShloMosaic.ValueIdx

/-- The reference's neighbourhood sum of node features `h` over the edge list `e`: gather the source rows, add them
    into the destination rows. -/
def agg (e : (⟨S2x1600000, .i32⟩ : BufTy).Contents (Elt Ideal)) (h : Mat 100000 128) : Mat 100000 128 :=
  val_main_v13 (F := Ideal) h e

/-! ## Indices: the programs' index maps are the coordinate constructors -/

/-- Two rank-2 indices with the same coordinates are equal. -/
theorem idx2_ext {n0 n1 : Nat} (j j' : (⟨2, ![n0, n1]⟩ : Shape).Idx) (h0 : (j 0).val = (j' 0).val)
    (h1 : (j 1).val = (j' 1).val) : j = j' :=
  funext fun a => Fin.ext (by match a with | ⟨0, _⟩ => exact h0 | ⟨1, _⟩ => exact h1)

/-- Two rank-1 indices with the same coordinate are equal. -/
theorem idx1_ext {n : Nat} (j j' : (⟨1, ![n]⟩ : Shape).Idx) (h0 : (j 0).val = (j' 0).val) : j = j' :=
  funext fun a => Fin.ext (by match a with | ⟨0, _⟩ => exact h0)

/-! ## One layer, over variables -/

/-- The reference's order of additions, `(a · W_rel + b) + x · W_root`, against the specification's
    `(a · W_rel + x · W_root) + b`: commutativity of addition on the extended reals. -/
theorem conv_eq (a x : Mat 100000 128) (wr wo : Mat 128 128) (b : Row 128) (i : S100000x128.Idx)
    (la lx : Fin 128 → S100000x128.Idx) (ra rx : Fin 128 → S128x128.Idx) (ib : S128.Idx)
    (hla : ∀ k, la k = ix2 (n0 := 100000) (n1 := 128) (i 0) k) (hlx : ∀ k, lx k = ix2 (n0 := 100000) (n1 := 128) (i 0) k)
    (hra : ∀ k, ra k = ix2 (n0 := 128) (n1 := 128) k (i 1)) (hrx : ∀ k, rx k = ix2 (n0 := 128) (n1 := 128) k (i 1))
    (hib : ib = ix1 (n := 128) (i 1)) :
    max (((∑ k : Fin 128, a (la k) * wr (ra k)) + b ib) + ∑ k : Fin 128, x (lx k) * wo (rx k)) 0 = conv a x wr b wo i := by
  unfold conv
  simp only [hla, hlx, hra, hrx, hib]
  rw [add_right_comm]

/-- A dense rectified layer read at an index. -/
theorem dense_eq (h : Mat 100000 128) (w : Mat 128 128) (b : Row 128) (i : S100000x128.Idx)
    (l : Fin 128 → S100000x128.Idx) (r : Fin 128 → S128x128.Idx) (ib : S128.Idx)
    (hl : ∀ k, l k = ix2 (n0 := 100000) (n1 := 128) (i 0) k) (hr : ∀ k, r k = ix2 (n0 := 128) (n1 := 128) k (i 1))
    (hib : ib = ix1 (n := 128) (i 1)) :
    max ((∑ k : Fin 128, h (l k) * w (r k)) + b ib) 0 = dense h w b i := by
  unfold dense
  simp only [hl, hr, hib]

/-- The output layer read at an index. -/
theorem affine_eq (h : Mat 100000 128) (w : Mat 128 32) (b : Row 32) (i : S100000x32.Idx)
    (l : Fin 128 → S100000x128.Idx) (r : Fin 128 → S128x32.Idx) (ib : S32.Idx)
    (hl : ∀ k, l k = ix2 (n0 := 100000) (n1 := 128) (i 0) k) (hr : ∀ k, r k = ix2 (n0 := 128) (n1 := 32) k (i 1))
    (hib : ib = ix1 (n := 32) (i 1)) :
    (∑ k : Fin 128, h (l k) * w (r k)) + b ib = affine h w b i := by
  unfold affine
  simp only [hl, hr, hib]

/-! ## The aggregation is one function of the edge list and the features -/

/-- The second layer's neighbourhood sum is the same gather and scatter-add, applied to the first layer's output. -/
theorem v30_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v30 (F := Ideal) x0 x1 x2 x3 x4 = agg x1 (val_main_v20 (F := Ideal) x0 x1 x2 x3 x4) := rfl

/-- The third layer's neighbourhood sum is the same gather and scatter-add, applied to the second layer's output. -/
theorem v47_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v47 (F := Ideal) x0 x1 x2 x3 x4 x5 x6 x7 = agg x1 (val_main_v37 (F := Ideal) x0 x1 x2 x3 x4 x5 x6 x7) := rfl

/-! ## The three layers -/

/-- The first layer: the rectified sum of the two products and the bias is `conv` of the aggregated and the plain features. -/
theorem v20_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v20 (F := Ideal) x0 x1 x2 x3 x4 = layer (agg x1) x0 x2 x3 x4 := by
  funext i
  rw [val_main_v20_apply, val_main_v19_apply, val_main_v17_apply, val_main_v14_apply, val_main_v16_apply,
    val_main_v15_apply, val_main_v18_apply, val_main_call0_v0_apply, val_main_call0_cst_apply]
  simp only [Ideal.addf_def, Ideal.maximumf_def, Ideal.ofBits_def, Ideal.ofBits_zero_f32]
  exact conv_eq (agg x1 x0) x0 x2 x4 x3 i _ _ _ _ _
    (fun k => idx2_ext _ _ rfl rfl) (fun k => idx2_ext _ _ rfl rfl) (fun k => idx2_ext _ _ rfl rfl)
    (fun k => idx2_ext _ _ rfl rfl) (idx1_ext _ _ rfl)

/-- The second layer, over the first layer's output. -/
theorem v37_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v37 (F := Ideal) x0 x1 x2 x3 x4 x5 x6 x7 = layer (agg x1) (val_main_v20 (F := Ideal) x0 x1 x2 x3 x4) x5 x6 x7 := by
  funext i
  rw [val_main_v37_apply, val_main_v36_apply, val_main_v34_apply, val_main_v31_apply, val_main_v33_apply,
    val_main_v32_apply, val_main_v35_apply, val_main_call1_v0_apply, val_main_call1_cst_apply, v30_eq]
  simp only [Ideal.addf_def, Ideal.maximumf_def, Ideal.ofBits_def, Ideal.ofBits_zero_f32]
  exact conv_eq _ _ x5 x7 x6 i _ _ _ _ _
    (fun k => idx2_ext _ _ rfl rfl) (fun k => idx2_ext _ _ rfl rfl) (fun k => idx2_ext _ _ rfl rfl)
    (fun k => idx2_ext _ _ rfl rfl) (idx1_ext _ _ rfl)

/-- The third layer, over the second layer's output. -/
theorem v54_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) :
    val_main_v54 (F := Ideal) x0 x1 x2 x3 x4 x5 x6 x7 x8 x9 x10 = layer (agg x1) (val_main_v37 (F := Ideal) x0 x1 x2 x3 x4 x5 x6 x7) x8 x9 x10 := by
  funext i
  rw [val_main_v54_apply, val_main_v53_apply, val_main_v51_apply, val_main_v48_apply, val_main_v50_apply,
    val_main_v49_apply, val_main_v52_apply, val_main_call2_v0_apply, val_main_call2_cst_apply, v47_eq]
  simp only [Ideal.addf_def, Ideal.maximumf_def, Ideal.ofBits_def, Ideal.ofBits_zero_f32]
  exact conv_eq _ _ x8 x10 x9 i _ _ _ _ _
    (fun k => idx2_ext _ _ rfl rfl) (fun k => idx2_ext _ _ rfl rfl) (fun k => idx2_ext _ _ rfl rfl)
    (fun k => idx2_ext _ _ rfl rfl) (idx1_ext _ _ rfl)

/-! ## The edge classifier -/

/-- The classifier's hidden layer is `dense` of the third layer's output. -/
theorem v59_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128x128, .f32⟩ : BufTy).Contents (Elt Ideal)) (x12 : (⟨S128, .f32⟩ : BufTy).Contents (Elt Ideal)) :
    val_main_v59 (F := Ideal) x0 x1 x2 x3 x4 x5 x6 x7 x8 x9 x10 x11 x12 = dense (val_main_v54 (F := Ideal) x0 x1 x2 x3 x4 x5 x6 x7 x8 x9 x10) x11 x12 := by
  funext i
  rw [val_main_v59_apply, val_main_v58_apply, val_main_v55_apply, val_main_v57_apply, val_main_v56_apply,
    val_main_call3_v0_apply, val_main_call3_cst_apply]
  simp only [Ideal.addf_def, Ideal.maximumf_def, Ideal.ofBits_def, Ideal.ofBits_zero_f32]
  exact dense_eq _ x11 x12 i _ _ _ (fun k => idx2_ext _ _ rfl rfl) (fun k => idx2_ext _ _ rfl rfl) (idx1_ext _ _ rfl)

/-- The result is the output layer over the hidden layer: the classifier `cls`. -/
theorem v63_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128x128, .f32⟩ : BufTy).Contents (Elt Ideal)) (x12 : (⟨S128, .f32⟩ : BufTy).Contents (Elt Ideal)) (x13 : (⟨S128x32, .f32⟩ : BufTy).Contents (Elt Ideal)) (x14 : (⟨S32, .f32⟩ : BufTy).Contents (Elt Ideal)) :
    val_main_v63 (F := Ideal) x0 x1 x2 x3 x4 x5 x6 x7 x8 x9 x10 x11 x12 x13 x14 = cls (val_main_v54 (F := Ideal) x0 x1 x2 x3 x4 x5 x6 x7 x8 x9 x10) x11 x12 x13 x14 := by
  funext i
  rw [val_main_v63_apply, val_main_v60_apply, val_main_v62_apply, val_main_v61_apply, v59_eq]
  simp only [Ideal.addf_def]
  exact affine_eq _ x13 x14 i _ _ _ (fun k => idx2_ext _ _ rfl rfl) (fun k => idx2_ext _ _ rfl rfl) (idx1_ext _ _ rfl)

/-- The reference's result, as a function of its fifteen arguments, is the network over its own aggregation. -/
theorem result_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 x8 : (⟨S128x128, .f32⟩ : BufTy).Contents (Elt Ideal)) (x9 : (⟨S128, .f32⟩ : BufTy).Contents (Elt Ideal))
    (x10 x11 : (⟨S128x128, .f32⟩ : BufTy).Contents (Elt Ideal)) (x12 : (⟨S128, .f32⟩ : BufTy).Contents (Elt Ideal))
    (x13 : (⟨S128x32, .f32⟩ : BufTy).Contents (Elt Ideal)) (x14 : (⟨S32, .f32⟩ : BufTy).Contents (Elt Ideal)) :
    val_main_v63 (F := Ideal) x0 x1 x2 x3 x4 x5 x6 x7 x8 x9 x10 x11 x12 x13 x14
      = net (agg x1) x0 x2 x3 x4 x5 x6 x7 x8 x9 x10 x11 x12 x13 x14 := by
  rw [v63_eq, v54_eq, v37_eq, v20_eq]
  rfl

end Cert.ReferenceIdeal.RefValue

end
-- ==== Proof.lean ====
/-
  The certificate of a three-layer graph network with an edge classifier.

  Each layer sends node features `h` to `max (agg h · W_rel + h · W_root + b, 0)`, where `agg h` sums the rows of `h`
  over the edges (gathered at the sources, added in at the destinations); the classifier is
  `max (h · W0 + b0, 0) · W1 + b1`.  The kernel program computes the dense part of every layer and the classifier in
  four tiled regions over 5000-row blocks and leaves the edge sum to the host between them; the reference computes
  everything on the host.  Read on the extended reals both are the function `GraphSpec.net` of the argument arrays over
  one and the same edge sum: the regions' blocks tile the rows, a product into a zero accumulator is the plain sum over
  the contracted coordinate, a change of float format is the identity, and the two programs differ only in the order
  in which the bias and the second product are added, which addition's commutativity settles without any finiteness.
  The word-level kernel needs only its frame; the idealization rewrote nothing, so `preserves` holds trivially.
-/
import proofs.«179810_j1520418422913_1_alg».proof.Defs
import proofs.«179810_j1520418422913_1_alg».proof.Proof.Gen.Kernel
import proofs.«179810_j1520418422913_1_alg».proof.Proof.Gen.Kernel.Frame
import proofs.«179810_j1520418422913_1_alg».proof.Proof.Gen.KernelIdeal
import proofs.«179810_j1520418422913_1_alg».proof.Proof.Gen.KernelIdeal.Frame
import proofs.«179810_j1520418422913_1_alg».proof.Proof.Gen.ReferenceIdeal
import proofs.«179810_j1520418422913_1_alg».proof.Proof.Gen.ReferenceIdeal.Run
import proofs.«179810_j1520418422913_1_alg».proof.Proof.Gen.ReferenceIdeal.Read
import proofs.«179810_j1520418422913_1_alg».proof.Proof.Gen.Pre_finite_inputs
import proofs.«179810_j1520418422913_1_alg».proof.Proof.KernelRun
import proofs.«179810_j1520418422913_1_alg».proof.Proof.Chain
import proofs.«179810_j1520418422913_1_alg».proof.Proof.RefValue
import Idealize.ShloMosaic.Adequacy
import Idealize.ShloMosaic.Init

noncomputable section

namespace Cert.Proof

open Idealize.ShloMosaic Idealize.SL.Sem

/-- The two programs' edge sums are one function: the same slices of the edge list, the same index normalisation, the
    same gather and the same scatter-add into a zero array. -/
theorem agg_eq (e : Cert.KernelIdeal.Chain.Edges) (h : Cert.GraphSpec.Mat 100000 128) :
    Cert.ReferenceIdeal.RefValue.agg e h = Cert.KernelIdeal.Chain.agg e h := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- Both programs end with the network of the (agreeing) argument arrays in their result buffers. -/
theorem algebraic : Cert.algebraic_KernelIdeal_ReferenceIdeal := by
  intro m ρ m' ρ' _ hagree
  refine ⟨_, Cert.KernelIdeal.Out.run_out m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.Read.val_main_v63_eq, Cert.ReferenceIdeal.RefValue.result_eq, Cert.KernelIdeal.Chain.out8,
    h0, h1, h2, h3, h4, h5, h6, h7, h8, h9, h10, h11, h12, h13, h14]
  exact congrArg (fun a => Cert.GraphSpec.net a _ _ _ _ _ _ _ _ _ _ _ _ _ _) (funext fun h => agg_eq _ h)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
